-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x1024x31 : Shape := ⟨4, ![1, 1024, 1024, 31]⟩
abbrev S1x1024x1024x1 : Shape := ⟨4, ![1, 1024, 1024, 1]⟩
abbrev S_ : Shape := ⟨0, ![]⟩

class Facts : Prop where
  bcast_S_S1x1024x1024x31 : S_.BroadcastsInDim S1x1024x1024x31 (![] : Fin 0 → Fin S1x1024x1024x31.rank)
  reducesTo_S1x1024x1024x31_S_d0_1_2_3 : S1x1024x1024x31.ReducesTo [0, 1, 2, 3] S_
  h_S_ : 0 < S_.numel
  bcast_S_S1x1024x1024x1 : S_.BroadcastsInDim S1x1024x1024x1 (![] : Fin 0 → Fin S1x1024x1024x1.rank)
  reducesTo_S1x1024x1024x1_S_d0_1_2_3 : S1x1024x1024x1.ReducesTo [0, 1, 2, 3] S_

variable [Facts]

def fn {F : FTy → Type} [FloatOps F] (main_arg0 : FVec F S1x1024x1024x31 .f32) (main_arg1 : FVec F S1x1024x1024x1 .f32) : IVec S_ 1 :=
  let main_v0 : FVec F S1x1024x1024x31 .f32 := Host.absf main_arg0
  let main_cst : FVec F S_ .f32 := constant S_ .f32 0x7F800000#32
  let main_v1 : FVec F S1x1024x1024x31 .f32 := broadcastInDim S1x1024x1024x31 ![] bcast_S_S1x1024x1024x31 main_cst
  let main_v2 : IVec S1x1024x1024x31 1 := cmpf .olt main_v0 main_v1
  let main_c : IVec S_ 1 := constantI S_ 1 1#1
  let main_v3 : IVec S_ 1 := (fun x v => Host.reduce IntOp.andi x v reducesTo_S1x1024x1024x31_S_d0_1_2_3 h_S_) main_v2 main_c
  let main_v4 : FVec F S1x1024x1024x1 .f32 := Host.absf main_arg1
  let main_cst_0 : FVec F S_ .f32 := constant S_ .f32 0x7F800000#32
  let main_v5 : FVec F S1x1024x1024x1 .f32 := broadcastInDim S1x1024x1024x1 ![] bcast_S_S1x1024x1024x1 main_cst_0
  let main_v6 : IVec S1x1024x1024x1 1 := cmpf .olt main_v4 main_v5
  let main_c_1 : IVec S_ 1 := constantI S_ 1 1#1
  let main_v7 : IVec S_ 1 := (fun x v => Host.reduce IntOp.andi x v reducesTo_S1x1024x1024x1_S_d0_1_2_3 h_S_) main_v6 main_c_1
  let main_v8 : IVec S_ 1 := andi main_v3 main_v7
  main_v8
-- ==== Kernel.lean ====
abbrev S1x1024x1024x31 : Shape := ⟨4, ![1, 1024, 1024, 31]⟩
abbrev S1x1024x1024x1 : Shape := ⟨4, ![1, 1024, 1024, 1]⟩
abbrev S1024x1024x31 : Shape := ⟨3, ![1024, 1024, 31]⟩
abbrev S1024x31x1024 : Shape := ⟨3, ![1024, 31, 1024]⟩
abbrev S1024x1024x1 : Shape := ⟨3, ![1024, 1024, 1]⟩
abbrev S1024x1054 : Shape := ⟨2, ![1024, 1054]⟩
abbrev S16x31x1024 : Shape := ⟨3, ![16, 31, 1024]⟩
abbrev S16x1024x1 : Shape := ⟨3, ![16, 1024, 1]⟩
abbrev S16x1054 : Shape := ⟨2, ![16, 1054]⟩
abbrev S16x1024 : Shape := ⟨2, ![16, 1024]⟩
abbrev S16x30 : Shape := ⟨2, ![16, 30]⟩
abbrev S16x1x1024 : Shape := ⟨3, ![16, 1, 1024]⟩
abbrev S1x1024x1054x1 : Shape := ⟨4, ![1, 1024, 1054, 1]⟩

abbrev nBuf : Space → Nat
  | .hbm => 7
  | .vmem => 6
  | .smem => 0
  | _ => 0

abbrev bufTy : (tb : Table) → Fin (tcTables nBuf tb) → BufTy
  | .hbm, ⟨0, _⟩ => ⟨S1x1024x1024x31, .f32⟩
  | .hbm, ⟨1, _⟩ => ⟨S1x1024x1024x1, .f32⟩
  | .hbm, ⟨2, _⟩ => ⟨S1024x1024x31, .f32⟩
  | .hbm, ⟨3, _⟩ => ⟨S1024x31x1024, .f32⟩
  | .hbm, ⟨4, _⟩ => ⟨S1024x1024x1, .f32⟩
  | .hbm, ⟨5, _⟩ => ⟨S1024x1054, .f32⟩
  | .hbm, ⟨6, _⟩ => ⟨S1x1024x1054x1, .f32⟩
  | .local _ .vmem, ⟨0, _⟩ => ⟨S16x31x1024, .f32⟩
  | .local _ .vmem, ⟨1, _⟩ => ⟨S16x31x1024, .f32⟩
  | .local _ .vmem, ⟨2, _⟩ => ⟨S16x1024x1, .f32⟩
  | .local _ .vmem, ⟨3, _⟩ => ⟨S16x1024x1, .f32⟩
  | .local _ .vmem, ⟨4, _⟩ => ⟨S16x1054, .f32⟩
  | .local _ .vmem, ⟨5, _⟩ => ⟨S16x1054, .f32⟩
  | _, _ => ⟨S1x1024x1024x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x31x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1054 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1024x1024x31_S1024x1024x31 : S1x1024x1024x31.ShapeCasts S1024x1024x31
  transposes_S1024x1024x31_S1024x31x1024_0_2_1 : S1024x1024x31.Transposes [0, 2, 1] S1024x31x1024
  shapeCasts_S1x1024x1024x1_S1024x1024x1 : S1x1024x1024x1.ShapeCasts S1024x1024x1
  inb_S16x1024x1_S16x1024x1_0_0_0 : ∀ a, (![0, 0, 0] : Fin 3 → Nat) a + S16x1024x1.size a ≤ S16x1024x1.size a
  h_S16x1024x1 : 0 < S16x1024x1.numel
  shapeCasts_S16x1024x1_S16x1024 : S16x1024x1.ShapeCasts S16x1024
  inb_S16x31x1024_S16x1x1024_0_0_0 : ∀ a, (![0, 0, 0] : Fin 3 → Nat) a + S16x1x1024.size a ≤ S16x31x1024.size a
  h_S16x1x1024 : 0 < S16x1x1024.numel
  shapeCasts_S16x1x1024_S16x1024 : S16x1x1024.ShapeCasts S16x1024
  concatenates_S16x1024_S16x30_S16x1054_d1 : Shape.Concatenates [S16x1024, S16x30] S16x1054 1
  rotates_S16x1054_d1 : S16x1054.Rotates 1 none
  inb_S16x31x1024_S16x1x1024_0_1_0 : ∀ a, (![0, 1, 0] : Fin 3 → Nat) a + S16x1x1024.size a ≤ S16x31x1024.size a
  inb_S16x31x1024_S16x1x1024_0_2_0 : ∀ a, (![0, 2, 0] : Fin 3 → Nat) a + S16x1x1024.size a ≤ S16x31x1024.size a
  inb_S16x31x1024_S16x1x1024_0_3_0 : ∀ a, (![0, 3, 0] : Fin 3 → Nat) a + S16x1x1024.size a ≤ S16x31x1024.size a
  inb_S16x31x1024_S16x1x1024_0_4_0 : ∀ a, (![0, 4, 0] : Fin 3 → Nat) a + S16x1x1024.size a ≤ S16x31x1024.size a
  inb_S16x31x1024_S16x1x1024_0_5_0 : ∀ a, (![0, 5, 0] : Fin 3 → Nat) a + S16x1x1024.size a ≤ S16x31x1024.size a
  inb_S16x31x1024_S16x1x1024_0_6_0 : ∀ a, (![0, 6, 0] : Fin 3 → Nat) a + S16x1x1024.size a ≤ S16x31x1024.size a
  inb_S16x31x1024_S16x1x1024_0_7_0 : ∀ a, (![0, 7, 0] : Fin 3 → Nat) a + S16x1x1024.size a ≤ S16x31x1024.size a
  inb_S16x31x1024_S16x1x1024_0_8_0 : ∀ a, (![0, 8, 0] : Fin 3 → Nat) a + S16x1x1024.size a ≤ S16x31x1024.size a
  inb_S16x31x1024_S16x1x1024_0_9_0 : ∀ a, (![0, 9, 0] : Fin 3 → Nat) a + S16x1x1024.size a ≤ S16x31x1024.size a
  inb_S16x31x1024_S16x1x1024_0_10_0 : ∀ a, (![0, 10, 0] : Fin 3 → Nat) a + S16x1x1024.size a ≤ S16x31x1024.size a
  inb_S16x31x1024_S16x1x1024_0_11_0 : ∀ a, (![0, 11, 0] : Fin 3 → Nat) a + S16x1x1024.size a ≤ S16x31x1024.size a
  inb_S16x31x1024_S16x1x1024_0_12_0 : ∀ a, (![0, 12, 0] : Fin 3 → Nat) a + S16x1x1024.size a ≤ S16x31x1024.size a
  inb_S16x31x1024_S16x1x1024_0_13_0 : ∀ a, (![0, 13, 0] : Fin 3 → Nat) a + S16x1x1024.size a ≤ S16x31x1024.size a
  inb_S16x31x1024_S16x1x1024_0_14_0 : ∀ a, (![0, 14, 0] : Fin 3 → Nat) a + S16x1x1024.size a ≤ S16x31x1024.size a
  inb_S16x31x1024_S16x1x1024_0_15_0 : ∀ a, (![0, 15, 0] : Fin 3 → Nat) a + S16x1x1024.size a ≤ S16x31x1024.size a
  inb_S16x31x1024_S16x1x1024_0_16_0 : ∀ a, (![0, 16, 0] : Fin 3 → Nat) a + S16x1x1024.size a ≤ S16x31x1024.size a
  inb_S16x31x1024_S16x1x1024_0_17_0 : ∀ a, (![0, 17, 0] : Fin 3 → Nat) a + S16x1x1024.size a ≤ S16x31x1024.size a
  inb_S16x31x1024_S16x1x1024_0_18_0 : ∀ a, (![0, 18, 0] : Fin 3 → Nat) a + S16x1x1024.size a ≤ S16x31x1024.size a
  inb_S16x31x1024_S16x1x1024_0_19_0 : ∀ a, (![0, 19, 0] : Fin 3 → Nat) a + S16x1x1024.size a ≤ S16x31x1024.size a
  inb_S16x31x1024_S16x1x1024_0_20_0 : ∀ a, (![0, 20, 0] : Fin 3 → Nat) a + S16x1x1024.size a ≤ S16x31x1024.size a
  inb_S16x31x1024_S16x1x1024_0_21_0 : ∀ a, (![0, 21, 0] : Fin 3 → Nat) a + S16x1x1024.size a ≤ S16x31x1024.size a
  inb_S16x31x1024_S16x1x1024_0_22_0 : ∀ a, (![0, 22, 0] : Fin 3 → Nat) a + S16x1x1024.size a ≤ S16x31x1024.size a
  inb_S16x31x1024_S16x1x1024_0_23_0 : ∀ a, (![0, 23, 0] : Fin 3 → Nat) a + S16x1x1024.size a ≤ S16x31x1024.size a
  inb_S16x31x1024_S16x1x1024_0_24_0 : ∀ a, (![0, 24, 0] : Fin 3 → Nat) a + S16x1x1024.size a ≤ S16x31x1024.size a
  inb_S16x31x1024_S16x1x1024_0_25_0 : ∀ a, (![0, 25, 0] : Fin 3 → Nat) a + S16x1x1024.size a ≤ S16x31x1024.size a
  inb_S16x31x1024_S16x1x1024_0_26_0 : ∀ a, (![0, 26, 0] : Fin 3 → Nat) a + S16x1x1024.size a ≤ S16x31x1024.size a
  inb_S16x31x1024_S16x1x1024_0_27_0 : ∀ a, (![0, 27, 0] : Fin 3 → Nat) a + S16x1x1024.size a ≤ S16x31x1024.size a
  inb_S16x31x1024_S16x1x1024_0_28_0 : ∀ a, (![0, 28, 0] : Fin 3 → Nat) a + S16x1x1024.size a ≤ S16x31x1024.size a
  inb_S16x31x1024_S16x1x1024_0_29_0 : ∀ a, (![0, 29, 0] : Fin 3 → Nat) a + S16x1x1024.size a ≤ S16x31x1024.size a
  inb_S16x31x1024_S16x1x1024_0_30_0 : ∀ a, (![0, 30, 0] : Fin 3 → Nat) a + S16x1x1024.size a ≤ S16x31x1024.size a
  inb_S16x1054_S16x1054_0_0 : ∀ a, (![0, 0] : Fin 2 → Nat) a + S16x1054.size a ≤ S16x1054.size a
  h_S16x1054 : 0 < S16x1054.numel
  shapeCasts_S1024x1054_S1x1024x1054x1 : S1024x1054.ShapeCasts S1x1024x1054x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x31x1024.size a ≤ S1024x31x1024.size a
  hwx0_0 : ∀ i : grid0.Coords, EltTy.bits .f32 = 32 ∨ (Rect.block (s := S1024x31x1024) S16x31x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024x1.size a ≤ S1024x1024x1.size a
  hwx0_1 : ∀ i : grid0.Coords, EltTy.bits .f32 = 32 ∨ (Rect.block (s := S1024x1024x1) S16x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1054.size a ≤ S1024x1054.size a
  hwx0_2 : ∀ i : grid0.Coords, EltTy.bits .f32 = 32 ∨ (Rect.block (s := S1024x1054) S16x1054.size (cc0_transform_2 i) (hinb0_2 i)).WholeWords (EltTy.packing .f32)

variable [Facts₀]

abbrev win0_0 : Pipeline.Window sig grid0 :=
  Pipeline.Window.ofSpec (Memref.whole main_v1) S16x31x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1054.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1024x1024x31 : Shape := ⟨4, ![1, 1024, 1024, 31]⟩
abbrev S1x1024x1024x1 : Shape := ⟨4, ![1, 1024, 1024, 1]⟩
abbrev S1024 : Shape := ⟨1, ![1024]⟩
abbrev S1024x1 : Shape := ⟨2, ![1024, 1]⟩
abbrev S31 : Shape := ⟨1, ![31]⟩
abbrev S1x31 : Shape := ⟨2, ![1, 31]⟩
abbrev S1024x31 : Shape := ⟨2, ![1024, 31]⟩
abbrev S_ : Shape := ⟨0, ![]⟩
abbrev S1x1024x1054 : Shape := ⟨3, ![1, 1024, 1054]⟩
abbrev S1024x31x1 : Shape := ⟨3, ![1024, 31, 1]⟩
abbrev S1x1024x1054x1 : Shape := ⟨4, ![1, 1024, 1054, 1]⟩

abbrev nBuf : Space → Nat
  | .hbm => 23
  | .vmem => 0
  | .smem => 0
  | _ => 0

abbrev bufTy : (tb : Table) → Fin (tcTables nBuf tb) → BufTy
  | .hbm, ⟨0, _⟩ => ⟨S1x1024x1024x31, .f32⟩
  | .hbm, ⟨1, _⟩ => ⟨S1x1024x1024x1, .f32⟩
  | .hbm, ⟨2, _⟩ => ⟨S1x1024x1024x31, .f32⟩
  | .hbm, ⟨3, _⟩ => ⟨S1x1024x1024x31, .f32⟩
  | .hbm, ⟨4, _⟩ => ⟨S1024, .i32⟩
  | .hbm, ⟨5, _⟩ => ⟨S1024x1, .i32⟩
  | .hbm, ⟨6, _⟩ => ⟨S31, .i32⟩
  | .hbm, ⟨7, _⟩ => ⟨S1x31, .i32⟩
  | .hbm, ⟨8, _⟩ => ⟨S1024x31, .i32⟩
  | .hbm, ⟨9, _⟩ => ⟨S1024x31, .i32⟩
  | .hbm, ⟨10, _⟩ => ⟨S1024x31, .i32⟩
  | .hbm, ⟨11, _⟩ => ⟨S_, .f32⟩
  | .hbm, ⟨12, _⟩ => ⟨S1x1024x1054, .f32⟩
  | .hbm, ⟨13, _⟩ => ⟨S_, .i32⟩
  | .hbm, ⟨14, _⟩ => ⟨S1024x31, .i32⟩
  | .hbm, ⟨15, _⟩ => ⟨S1024x31, .i1⟩
  | .hbm, ⟨16, _⟩ => ⟨S_, .i32⟩
  | .hbm, ⟨17, _⟩ => ⟨S1024x31, .i32⟩
  | .hbm, ⟨18, _⟩ => ⟨S1024x31, .i32⟩
  | .hbm, ⟨19, _⟩ => ⟨S1024x31, .i32⟩
  | .hbm, ⟨20, _⟩ => ⟨S1024x31x1, .i32⟩
  | .hbm, ⟨21, _⟩ => ⟨S1x1024x1054, .f32⟩
  | .hbm, ⟨22, _⟩ => ⟨S1x1024x1054x1, .f32⟩
  | _, _ => ⟨S1x1024x1024x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  bcast_S1x1024x1024x1_S1x1024x1024x31_0_1_2_3 : S1x1024x1024x1.BroadcastsInDim S1x1024x1024x31 (![0, 1, 2, 3] : Fin 4 → Fin S1x1024x1024x31.rank)
  bcast_S1024_S1024x1_0 : S1024.BroadcastsInDim S1024x1 (![0] : Fin 1 → Fin S1024x1.rank)
  bcast_S31_S1x31_1 : S31.BroadcastsInDim S1x31 (![1] : Fin 1 → Fin S1x31.rank)
  bcast_S1024x1_S1024x31_0_1 : S1024x1.BroadcastsInDim S1024x31 (![0, 1] : Fin 2 → Fin S1024x31.rank)
  bcast_S1x31_S1024x31_0_1 : S1x31.BroadcastsInDim S1024x31 (![0, 1] : Fin 2 → Fin S1024x31.rank)
  bcast_S_S1x1024x1054 : S_.BroadcastsInDim S1x1024x1054 (![] : Fin 0 → Fin S1x1024x1054.rank)
  bcast_S_S1024x31 : S_.BroadcastsInDim S1024x31 (![] : Fin 0 → Fin S1024x31.rank)
  bcast_S1024x31_S1024x31x1_0_1 : S1024x31.BroadcastsInDim S1024x31x1 (![0, 1] : Fin 2 → Fin S1024x31x1.rank)
  bcast_S1x1024x1054_S1x1024x1054x1_0_1_2 : S1x1024x1054.BroadcastsInDim S1x1024x1054x1 (![0, 1, 2] : Fin 3 → Fin S1x1024x1054x1.rank)
  scatter_S1x1024x1054_S1024x31x1_S1x1024x1024x31_01_2_2_2_wf : ScatterDims.WF S1x1024x1054 S1024x31x1 S1x1024x1024x31 [0, 1] [2] [2] 2

variable [Facts₀]

def scatter_S1x1024x1054_S1024x31x1_S1x1024x1024x31_01_2_2_2 : ScatterDims S1x1024x1054 S1024x31x1 S1x1024x1024x31 where
  updateWindowDims := [0, 1]
  insertedWindowDims := [2]
  scatterDimsToOperandDims := [2]
  indexVectorDim := 2
  wf := scatter_S1x1024x1054_S1024x31x1_S1x1024x1024x31_01_2_2_2_wf

class Facts : Prop extends Facts₀ where

variable [Facts]
-- ==== Proof.ShiftedBand.lean ====
/-
  One shifted band, read at an entry.

  A [16, 1, 1024] slab v is viewed as [16, 1024], multiplied entry by entry by ca, padded on the right with a
  [16, 30] block of zeros to width 1054, and rotated k places to the right along the columns: column j of the
  result is column (j + 1054 - k) mod 1054 of the padded row.  For k below 31 the only columns that wrap round
  are padding, so entry (p, j) of the result is v[p, 0, j-k] · ca[p, j-k] when k ≤ j and j - k < 1024, and zero
  otherwise.
-/
import Idealize.ShloMosaic.PureOps.Ideal
import Idealize.ShloMosaic.Lib.ValueIdx
import Idealize.ShloMosaic.Lib.Pipeline.Value
noncomputable section
open Idealize.ShloMosaic Idealize.ShloMosaic.ValueIdx
namespace Cert.ShiftedBand

abbrev S16x1x1024 : Shape := ⟨3, ![16, 1, 1024]⟩
abbrev S16x1024 : Shape := ⟨2, ![16, 1024]⟩
abbrev S16x30 : Shape := ⟨2, ![16, 30]⟩
abbrev S16x1054 : Shape := ⟨2, ![16, 1054]⟩

/-- A rotation to the right by `k` places along the lane axis, read at `(p, j)`: the operand at row `p`,
    lane `(j + 1054 - k mod 1054) mod 1054`. The row coordinate is untouched, since the rotated axis is the lane axis. -/
theorem rot_apply (x : S16x1054.Idx → EReal) (k : BitVec 32) (hrot : S16x1054.Rotates 1 none)
    (p : Fin 16) (j : Fin 1054) :
    dynamicRotate (s := S16x1054) 1 k none x hrot (ix2 p j)
      = x (ix2 p ⟨(j.val + 1054 - k.toNat % 1054) % 1054, Nat.mod_lt _ (by decide)⟩) := by
  unfold dynamicRotate
  refine congrArg x (funext fun b => ?_)
  match b with
  | ⟨0, _⟩ => rfl
  | ⟨1, _⟩ => rfl

/-- The concatenation along the lanes of a width-1024 piece and a width-30 piece, read at a lane below 1024:
    the first piece at the same row and lane. -/
theorem cat_left (x₁ : S16x1024.Idx → EReal) (z : S16x30.Idx → EReal)
    (hcat : Shape.Concatenates [S16x1024, S16x30] S16x1054 1) (p : Fin 16) (q : Fin 1054) (hq : q.val < 1024) :
    concatenate S16x1054 1 [⟨S16x1024, x₁⟩, ⟨S16x30, z⟩] hcat (ix2 p q) = x₁ (ix2 p ⟨q.val, hq⟩) := by
  refine concatenate_pair_apply_left (1 : Fin 2) x₁ z hcat (ix2 p q) rfl (ix2 p ⟨q.val, hq⟩) ?_
  intro b
  match b with
  | ⟨0, _⟩ => rfl
  | ⟨1, _⟩ => rfl

/-- The same concatenation read at a lane from 1024 on: the second piece at the same row, 1024 lanes to the left. -/
theorem cat_right (x₁ : S16x1024.Idx → EReal) (z : S16x30.Idx → EReal)
    (hcat : Shape.Concatenates [S16x1024, S16x30] S16x1054 1) (p : Fin 16) (q : Fin 1054) (hq : 1024 ≤ q.val) :
    concatenate S16x1054 1 [⟨S16x1024, x₁⟩, ⟨S16x30, z⟩] hcat (ix2 p q)
      = z (ix2 p ⟨q.val - 1024, by have := q.isLt; omega⟩) := by
  refine concatenate_pair_apply_right (1 : Fin 2) x₁ z hcat (ix2 p q) rfl rfl
    (ix2 p ⟨q.val - 1024, by have := q.isLt; omega⟩) ?_ ?_
  · intro b hb
    match b, hb with
    | ⟨0, _⟩, _ => rfl
    | ⟨1, _⟩, hb => exact absurd rfl hb
  · show (q.val - 1024) + 1024 = q.val
    omega

/-- The `[16, 1, 1024]` slab viewed as `[16, 1024]`: entry `(p, q)` is the slab's entry `(p, 0, q)`, both at
    row-major position `1024 p + q`. -/
theorem cast_apply (v : S16x1x1024.Idx → EReal) (hsc : S16x1x1024.ShapeCasts S16x1024) (p : Fin 16) (q : Fin 1024) :
    shapeCast S16x1024 v hsc (ix2 p q) = v (ix3 p (0 : Fin 1) q) := by
  refine shapeCast_apply v hsc (ix2 p q) (ix3 p (0 : Fin 1) q) ?_
  rw [Shape.rowMajor_val_three, Shape.rowMajor_val_two]
  show (p.val * 1 + 0) * 1024 + q.val = p.val * 1024 + q.val
  omega

/-- The shifted band. The row `v ⊙ ca` of width 1024, padded on the right with 30 zeros and rotated to the right by
    `k < 31` places: lane `j` of the result reads lane `(j + 1054 - k) mod 1054` of the padded row. For `k ≤ j` that lane
    is `j - k`, inside the data when `j - k < 1024` and inside the zeros otherwise; for `j < k` it is `j + 1054 - k`,
    which is at least `1054 - 30 = 1024`, so only zeros wrap round. -/
theorem band_apply (v : S16x1x1024.Idx → EReal) (ca : S16x1024.Idx → EReal) (z : S16x30.Idx → EReal) (hz : ∀ i, z i = 0)
    (k : BitVec 32) (hk : k.toNat < 31)
    (hsc : S16x1x1024.ShapeCasts S16x1024) (hcat : Shape.Concatenates [S16x1024, S16x30] S16x1054 1)
    (hrot : S16x1054.Rotates 1 none) (p : Fin 16) (j : Fin 1054) :
    dynamicRotate (s := S16x1054) 1 k none
        (concatenate S16x1054 1 [⟨S16x1024, mulf (F := Ideal) (φ := .f32) (shapeCast S16x1024 v hsc) ca⟩, ⟨S16x30, z⟩] hcat) hrot (ix2 p j)
      = if h : k.toNat ≤ j.val ∧ j.val - k.toNat < 1024 then
          v (ix3 p (0 : Fin 1) ⟨j.val - k.toNat, h.2⟩) * ca (ix2 p ⟨j.val - k.toNat, h.2⟩)
        else 0 := by
  rw [rot_apply]
  -- the lane of the padded row that lane `j` of the result reads
  generalize hqdef : (⟨(j.val + 1054 - k.toNat % 1054) % 1054, Nat.mod_lt _ (by decide)⟩ : Fin 1054) = q
  have hqv : q.val = (j.val + 1054 - k.toNat % 1054) % 1054 := by rw [← hqdef]
  have hj := j.isLt
  by_cases h : k.toNat ≤ j.val ∧ j.val - k.toNat < 1024
  · -- the lane is `j - k`, inside the data
    have hq : q.val < 1024 := by omega
    have e : (⟨q.val, hq⟩ : Fin 1024) = ⟨j.val - k.toNat, h.2⟩ := Fin.ext (by show q.val = j.val - k.toNat; omega)
    rw [dif_pos h, cat_left _ _ hcat p q hq, mulf_apply, cast_apply, e]
  · -- the lane is at least 1024, inside the zeros
    have hq : 1024 ≤ q.val := by omega
    rw [dif_neg h, cat_right _ _ hcat p q hq, hz]

end Cert.ShiftedBand
-- ==== Proof.BodyValue.lean ====
/-
  What one grid point's body leaves in the output block, entry by entry.

  The body holds a block x0 of the transposed cube, x0[p, l, n] (16 rows p, 31 bands l, 1024 columns n), and a
  block x1 of the aperture, x1[p, n, 0].  For each band l = 0, …, 30 it takes the slab x0[·, l, ·], multiplies it
  by the aperture, pads 30 zeros on the right, rotates the padded row l places to the right and adds the result
  onto the running sum, which starts at zero.  Entry (p, j) of the rotated band l is x0[p, l, j-l] · x1[p, j-l, 0]
  when l ≤ j and j - l < 1024, and 0 otherwise (only zeros wrap round, since l ≤ 30).  So entry (p, j) of the
  block is the sum over the 31 bands of that term, added in the order l = 0, 1, …, 30 onto 0.
-/
import proofs.«403431_j73246372266466_4_alg».proof.Proof.Gen.KernelIdeal.Frame
import proofs.«403431_j73246372266466_4_alg».proof.Proof.ShiftedBand
import Idealize.ShloMosaic.Lib.Pipeline.Value
import Idealize.ShloMosaic.Lib.ValueIdx
import Idealize.ShloMosaic.PureOps.Ideal.Laws
import Mathlib.Algebra.BigOperators.Group.Finset.Basic

noncomputable section

open Idealize.ShloMosaic Idealize.ShloMosaic.TcCoe Idealize.SL.Sem Idealize.ShloMosaic.ValueIdx

namespace Cert.KernelIdeal.Body

open Cert.KernelIdeal Cert.KernelIdeal.Gen

/-- What band l adds to entry (p, j) of the output block: the slab's entry of column j - l times the aperture's,
    when there is such a column. -/
def blockTerm (x0 : Vec Ideal S16x31x1024 .f32) (x1 : Vec Ideal S16x1024x1 .f32) (p : Fin 16) (j : Fin 1054) (l : ℕ) : EReal :=
  if h : l < 31 ∧ l ≤ j.val ∧ j.val - l < 1024 then
    x0 (ix3 p (⟨l, h.1⟩ : Fin 31) (⟨j.val - l, h.2.2⟩ : Fin 1024)) * x1 (ix3 p (⟨j.val - l, h.2.2⟩ : Fin 1024) (0 : Fin 1))
  else 0

/-- The slab of band l, read at (p, 0, n), is the block's entry (p, l, n). -/
theorem slab_apply (x0 : Vec Ideal S16x31x1024 .f32) (l : ℕ) (hl : l < 31)
    (inb : ∀ a, (![0, l, 0] : Fin 3 → ℕ) a + S16x1x1024.size a ≤ S16x31x1024.size a) (p : Fin 16) (n : Fin 1024) :
    View.ld x0 (Rect.unit (s := S16x31x1024) ![0, l, 0] S16x1x1024.size inb) (ix3 p (0 : Fin 1) n)
      = x0 (ix3 p (⟨l, hl⟩ : Fin 31) n) := by
  refine congrArg x0 (funext fun a => Fin.ext ?_)
  match a with
  | ⟨0, _⟩ => show 0 + 1 * p.val = p.val; omega
  | ⟨1, _⟩ => show l + 1 * 0 = l; omega
  | ⟨2, _⟩ => show 0 + 1 * n.val = n.val; omega

/-- The aperture's block viewed as [16, 1024]: entry (p, n) is the block's entry (p, n, 0). -/
theorem aperture_apply (x1 : Vec Ideal S16x1024x1 .f32) (p : Fin 16) (n : Fin 1024) :
    k0_pay2 (F := Ideal) (View.ld x1 r0_0) (ix2 p n) = x1 (ix3 p n (0 : Fin 1)) := by
  unfold k0_pay2
  have hz : (![0, 0, 0] : Fin 3 → Nat) = fun _ => 0 := funext fun a => by fin_cases a <;> rfl
  rw [View.ld_unit_zero (S := S16x1024x1) hz]
  refine shapeCast_apply x1 _ (ix2 p n) (ix3 p n (0 : Fin 1)) ?_
  rw [Shape.rowMajor_val_three, Shape.rowMajor_val_two]
  show (p.val * 1024 + n.val) * 1 + 0 = p.val * 1024 + n.val
  omega

/-- The padding is zero. -/
theorem pad_apply (i : S16x30.Idx) : k0_pay3 (F := Ideal) i = 0 := by
  unfold k0_pay3
  show Ideal.ofBits .f32 0x00000000#32 = 0
  exact Ideal.ofBits_zero_f32

/-- One band: slab l times the aperture, padded and rotated l places, read at (p, j). -/
theorem stanza_apply (x0 : Vec Ideal S16x31x1024 .f32) (x1 : Vec Ideal S16x1024x1 .f32) (p : Fin 16) (j : Fin 1054)
    (l : ℕ) (k : BitVec 32) (hk : k.toNat = l) (hl : l < 31)
    (inb : ∀ a, (![0, l, 0] : Fin 3 → ℕ) a + S16x1x1024.size a ≤ S16x31x1024.size a) :
    dynamicRotate (s := S16x1054) 1 k none
        (concatenate S16x1054 1
          [⟨S16x1024, mulf (F := Ideal) (shapeCast S16x1024 (View.ld x0 (Rect.unit (s := S16x31x1024) ![0, l, 0] S16x1x1024.size inb))
              shapeCasts_S16x1x1024_S16x1024) (k0_pay2 (F := Ideal) (View.ld x1 r0_0))⟩,
            ⟨S16x30, k0_pay3 (F := Ideal)⟩]
          concatenates_S16x1024_S16x30_S16x1054_d1) rotates_S16x1054_d1 (ix2 p j)
      = blockTerm x0 x1 p j l := by
  subst hk
  refine (Cert.ShiftedBand.band_apply _ _ _ pad_apply k hl _ _ _ p j).trans ?_
  unfold blockTerm
  by_cases h : k.toNat ≤ j.val ∧ j.val - k.toNat < 1024
  · rw [dif_pos h, dif_pos ⟨hl, h⟩, slab_apply x0 k.toNat hl inb, aperture_apply]
  · rw [dif_neg h, dif_neg (fun h' => h h'.2)]

theorem hz2 : (![0, 0] : Fin 2 → Nat) = fun _ => 0 := funext fun a => by fin_cases a <;> rfl

/-- Entry (p, j) of the output block: zero plus the 31 bands' terms, in the order the body adds them. -/
theorem out_apply (x0 : Vec Ideal S16x31x1024 .f32) (x1 : Vec Ideal S16x1024x1 .f32) (p : Fin 16) (j : Fin 1054) :
    out0_2 (F := Ideal) x0 x1 (ix2 p j) = ∑ l ∈ Finset.range 31, blockTerm x0 x1 p j l := by
  have st := fun (l : ℕ) (k : BitVec 32) (hk : k.toNat = l) (hl : l < 31) inb => stanza_apply x0 x1 p j l k hk hl inb
  have h0 : broadcast S16x1054 (FloatOps.ofBits (F := Ideal) FTy.f32 0#32) (ix2 p j) = (0 : EReal) := Ideal.ofBits_zero_f32
  unfold out0_2
  rw [View.canon_unit_zero hz2]
  unfold k0_pay1 k0_pay8 k0_pay7 k0_pay6 k0_pay5 k0_pay4
  dsimp only
  simp only [Finset.sum_range_succ, Finset.sum_range_zero, addf_apply]
  rw [h0,
    st 0 0#32 rfl (by decide) _,
    st 1 1#32 rfl (by decide) _,
    st 2 2#32 rfl (by decide) _,
    st 3 3#32 rfl (by decide) _,
    st 4 4#32 rfl (by decide) _,
    st 5 5#32 rfl (by decide) _,
    st 6 6#32 rfl (by decide) _,
    st 7 7#32 rfl (by decide) _,
    st 8 8#32 rfl (by decide) _,
    st 9 9#32 rfl (by decide) _,
    st 10 10#32 rfl (by decide) _,
    st 11 11#32 rfl (by decide) _,
    st 12 12#32 rfl (by decide) _,
    st 13 13#32 rfl (by decide) _,
    st 14 14#32 rfl (by decide) _,
    st 15 15#32 rfl (by decide) _,
    st 16 16#32 rfl (by decide) _,
    st 17 17#32 rfl (by decide) _,
    st 18 18#32 rfl (by decide) _,
    st 19 19#32 rfl (by decide) _,
    st 20 20#32 rfl (by decide) _,
    st 21 21#32 rfl (by decide) _,
    st 22 22#32 rfl (by decide) _,
    st 23 23#32 rfl (by decide) _,
    st 24 24#32 rfl (by decide) _,
    st 25 25#32 rfl (by decide) _,
    st 26 26#32 rfl (by decide) _,
    st 27 27#32 rfl (by decide) _,
    st 28 28#32 rfl (by decide) _,
    st 29 29#32 rfl (by decide) _,
    st 30 30#32 rfl (by decide) _]

end Cert.KernelIdeal.Body

end
-- ==== Proof.Shear.lean ====
/-
  The sheared, coded measurement, as one function of the two arguments.

  The spectral cube x has entries x[0, r, n, l] (row r, column n, band l) and the coded aperture ca has
  entries ca[0, r, n, 0].  Band l is masked by the aperture, x[0, r, n, l] · ca[0, r, n, 0], and then shifted
  l columns to the right; the measurement adds the 31 shifted bands.  Column c of row r therefore receives,
  from band l, the masked entry of column n = c - l when that column exists (l ≤ c and c - l < 1024) and nothing
  otherwise:

      sheared x ca [0, r, c, 0] = ∑_{l < 31} (if l ≤ c ∧ c - l < 1024 then x[0, r, c-l, l] · ca[0, r, c-l, 0] else 0).

  The same number is the sum over ALL pairs (n, l) with n + l = c of the masked entries, which is how a
  scatter-add along the diagonals n + l = c computes it: for a fixed band l at most one column n meets the
  diagonal.  Only commutativity and associativity of the sum and 0 + a = a are used, so the statements hold in
  any additive commutative monoid, the extended reals among them, with no finiteness assumption.
-/
import Idealize.ShloMosaic.PureOps.Ideal
import Idealize.ShloMosaic.Lib.ValueIdx
import Mathlib.Algebra.BigOperators.Group.Finset.Basic
import Mathlib.Algebra.BigOperators.Fin

noncomputable section

namespace Cert.Shear

open Idealize.ShloMosaic Idealize.ShloMosaic.ValueIdx

/-- The cube's shape, the aperture's and the measurement's. -/
abbrev SX : Shape := ⟨4, ![1, 1024, 1024, 31]⟩
abbrev SCa : Shape := ⟨4, ![1, 1024, 1024, 1]⟩
abbrev SOut : Shape := ⟨4, ![1, 1024, 1054, 1]⟩

/-- What band l adds to column c of row r: the masked entry of column c - l, when there is such a column. -/
def bandTerm (x : SX.Idx → EReal) (ca : SCa.Idx → EReal) (r : Fin 1024) (c : Fin 1054) (l : ℕ) : EReal :=
  if h : l < 31 ∧ l ≤ c.val ∧ c.val - l < 1024 then
    x (ix4 (0 : Fin 1) r (⟨c.val - l, h.2.2⟩ : Fin 1024) (⟨l, h.1⟩ : Fin 31))
      * ca (ix4 (0 : Fin 1) r (⟨c.val - l, h.2.2⟩ : Fin 1024) (0 : Fin 1))
  else 0

/-- The measurement: the 31 bands, each masked and shifted by its own number, added up. -/
def sheared (x : SX.Idx → EReal) (ca : SCa.Idx → EReal) : SOut.Idx → EReal :=
  fun i => ∑ l ∈ Finset.range 31, bandTerm x ca (i 1) (i 2) l

/-- The sum over the pairs (n, l) on the diagonal n + l = c is the sum over the bands l of the one entry of band l
    on that diagonal, if it has one. -/
theorem sum_diagonal {M : Type*} [AddCommMonoid M] (c : Fin 1054) (f : Fin 1024 → Fin 31 → M) :
    (∑ n : Fin 1024, ∑ l : Fin 31, if n.val + l.val = c.val then f n l else 0)
      = ∑ l ∈ Finset.range 31,
          if h : l < 31 ∧ l ≤ c.val ∧ c.val - l < 1024 then f ⟨c.val - l, h.2.2⟩ ⟨l, h.1⟩ else 0 := by
  rw [Finset.sum_comm,
    ← Fin.sum_univ_eq_sum_range
      (fun l => if h : l < 31 ∧ l ≤ c.val ∧ c.val - l < 1024 then f ⟨c.val - l, h.2.2⟩ ⟨l, h.1⟩ else 0) 31]
  refine Finset.sum_congr rfl (fun l _ => ?_)
  by_cases h : l.val ≤ c.val ∧ c.val - l.val < 1024
  · rw [dif_pos ⟨l.isLt, h⟩, Finset.sum_eq_single (⟨c.val - l.val, h.2⟩ : Fin 1024)]
    · rw [if_pos (show c.val - l.val + l.val = c.val by omega)]
    · intro n _ hn
      rw [if_neg]
      intro e
      exact hn (Fin.ext (show n.val = c.val - l.val by omega))
    · intro h'
      exact absurd (Finset.mem_univ _) h'
  · rw [dif_neg (fun h' => h h'.2)]
    refine Finset.sum_eq_zero (fun n _ => ?_)
    rw [if_neg]
    intro e
    have := n.isLt
    exact h (by omega)

end Cert.Shear

end
-- ==== Proof.KernelValue.lean ====
/-
  The kernel's result array, as the sheared measurement of its two arguments.

  Before the grid the program lays the cube out as [1024, 31, 1024] (row, band, column: a reshape dropping the
  leading unit axis, then a transpose of the last two axes) and the aperture as [1024, 1024, 1].  Grid point t
  works on rows 16 t, …, 16 t + 15: its blocks are those rows of the two arrays, and what it writes back is those
  rows of the [1024, 1054] result.  Entry (p, j) of the block written at point t is the sum over the bands of the
  masked, shifted entries of row 16 t + p (the body's value, entry by entry), so the 64 blocks are the 64 row
  groups of ONE array, the sheared measurement; they tile the result, and the reshape after the grid only adds
  unit axes.
-/
import proofs.«403431_j73246372266466_4_alg».proof.Proof.Gen.KernelIdeal.Frame
import proofs.«403431_j73246372266466_4_alg».proof.Proof.BodyValue
import proofs.«403431_j73246372266466_4_alg».proof.Proof.Shear
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Sheared

open Cert.KernelIdeal Cert.KernelIdeal.Gen Cert.KernelIdeal.Body Cert.Shear

variable (m : (ℓ : Loc nD τ sig) → Buf (Elt Ideal) ℓ) (ρ : Dev nD → PrngReg)

/-- The two arguments as launched, at their literal shapes. -/
abbrev cube (c : Dev nD) : SX.Idx → EReal := m ((c : Thread nD τ).loc main_arg0)
abbrev aperture (c : Dev nD) : SCa.Idx → EReal := m ((c : Thread nD τ).loc main_arg1)

/-! ## The arrays the grid works on -/

/-- The transposed cube: entry (r, l, n) is the cube's entry (0, r, n, l). -/
theorem cubeT_apply (c : Dev nD) (r : Fin 1024) (l : Fin 31) (n : Fin 1024) :
    (V m c main_v1 : S1024x31x1024.Idx → EReal) (ix3 r l n) = cube m c (ix4 (0 : Fin 1) r n l) := by
  have e : (V m c main_v1 : S1024x31x1024.Idx → EReal)
      = transpose S1024x31x1024 [0, 2, 1]
          (shapeCast S1024x1024x31 (cube m c) shapeCasts_S1x1024x1024x31_S1024x1024x31)
          transposes_S1024x1024x31_S1024x31x1024_0_2_1 := by
    show StableHlo.after hostOps0 (fun b => m (c, b)) (Proc.devRef .tc main_v1) = _
    after_results
    rfl
  rw [e]
  refine (transpose_apply _ _ _ (ix3 r l n) (ix3 r n l) ?_).trans ?_
  · intro b
    match b with
    | ⟨0, _⟩ => rfl
    | ⟨1, _⟩ => rfl
    | ⟨2, _⟩ => rfl
  · refine shapeCast_apply _ _ (ix3 r n l) (ix4 (0 : Fin 1) r n l) ?_
    rw [Shape.rowMajor_val_four, Shape.rowMajor_val_three]
    show ((0 * 1024 + r.val) * 1024 + n.val) * 31 + l.val = (r.val * 1024 + n.val) * 31 + l.val
    omega

/-- The aperture without its leading unit axis: entry (r, n, 0) is the aperture's entry (0, r, n, 0). -/
theorem aperture3_apply (c : Dev nD) (r : Fin 1024) (n : Fin 1024) :
    (V m c main_v2 : S1024x1024x1.Idx → EReal) (ix3 r n (0 : Fin 1)) = aperture m c (ix4 (0 : Fin 1) r n (0 : Fin 1)) := by
  have e : (V m c main_v2 : S1024x1024x1.Idx → EReal)
      = shapeCast S1024x1024x1 (aperture m c) shapeCasts_S1x1024x1024x1_S1024x1024x1 := by
    show StableHlo.after hostOps0 (fun b => m (c, b)) (Proc.devRef .tc main_v2) = _
    after_results
    rfl
  rw [e]
  refine shapeCast_apply _ _ (ix3 r n (0 : Fin 1)) (ix4 (0 : Fin 1) r n (0 : Fin 1)) ?_
  rw [Shape.rowMajor_val_four, Shape.rowMajor_val_three]
  show ((0 * 1024 + r.val) * 1024 + n.val) * 1 + 0 = (r.val * 1024 + n.val) * 1 + 0
  omega

/-! ## The blocks -/

/-- The result as a [1024, 1054] array: entry (r, c) is the measurement's entry (0, r, c, 0). -/
def rows (x : SX.Idx → EReal) (ca : SCa.Idx → EReal) : S1024x1054.Idx → EReal :=
  fun i => ∑ l ∈ Finset.range 31, bandTerm x ca (i 0) (i 1) l

/-- Point t's blocks start at row block t and at the first block of every other axis (decided over the grid). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Entry (p, l, n) of the cube's block at point t is row 16 t + p of the transposed cube. -/
theorem cube_block (c : Dev nD) (t : Fin cfg0.N) (p : Fin 16) (l : Fin 31) (n : Fin 1024) (R : Fin 1024)
    (hR : R.val = 16 * t.val + p.val) :
    (iblk m c 0 t : Vec Ideal S16x31x1024 .f32) (ix3 p l n) = cube m c (ix4 (0 : Fin 1) R n l) := by
  rw [← cubeT_apply m c R l n]
  obtain ⟨e0, e1, e2, -, -, -, -, -⟩ := idx_facts t
  unfold iblk
  rw [View.read_apply]
  show V m c main_v1 _ = V m c main_v1 _
  congr 1
  funext a
  apply Fin.ext
  match a with
  | ⟨0, _⟩ => show win0_0.index t (0 : Fin 3) * 16 + 1 * p.val = R.val; rw [e0, hR]; omega
  | ⟨1, _⟩ => show win0_0.index t (1 : Fin 3) * 31 + 1 * l.val = l.val; rw [e1]; omega
  | ⟨2, _⟩ => show win0_0.index t (2 : Fin 3) * 1024 + 1 * n.val = n.val; rw [e2]; omega

/-- Entry (p, n, 0) of the aperture's block at point t is row 16 t + p of the aperture. -/
theorem aperture_block (c : Dev nD) (t : Fin cfg0.N) (p : Fin 16) (n : Fin 1024) (R : Fin 1024)
    (hR : R.val = 16 * t.val + p.val) :
    (iblk m c 1 t : Vec Ideal S16x1024x1 .f32) (ix3 p n (0 : Fin 1)) = aperture m c (ix4 (0 : Fin 1) R n (0 : Fin 1)) := by
  rw [← aperture3_apply m c R n]
  obtain ⟨-, -, -, e0, e1, e2, -, -⟩ := idx_facts t
  unfold iblk
  rw [View.read_apply]
  show V m c main_v2 _ = V m c main_v2 _
  congr 1
  funext a
  apply Fin.ext
  match a with
  | ⟨0, _⟩ => show win0_1.index t (0 : Fin 3) * 16 + 1 * p.val = R.val; rw [e0, hR]; omega
  | ⟨1, _⟩ => show win0_1.index t (1 : Fin 3) * 1024 + 1 * n.val = n.val; rw [e1]; omega
  | ⟨2, _⟩ => show win0_1.index t (2 : Fin 3) * 1 + 1 * 0 = 0; rw [e2]

/-- A block whose rows are rows R₀ + p of the cube and of the aperture leaves rows R₀ + p of the measurement. -/
theorem block_eq (x : SX.Idx → EReal) (ca : SCa.Idx → EReal) (x0 : Vec Ideal S16x31x1024 .f32) (x1 : Vec Ideal S16x1024x1 .f32)
    (p : Fin 16) (j : Fin 1054) (R : Fin 1024)
    (h0 : ∀ (l : Fin 31) (n : Fin 1024), x0 (ix3 p l n) = x (ix4 (0 : Fin 1) R n l))
    (h1 : ∀ n : Fin 1024, x1 (ix3 p n (0 : Fin 1)) = ca (ix4 (0 : Fin 1) R n (0 : Fin 1))) :
    out0_2 (F := Ideal) x0 x1 (ix2 p j) = rows x ca (ix2 R j) := by
  rw [out_apply]
  unfold rows
  refine Finset.sum_congr rfl (fun l _ => ?_)
  show blockTerm x0 x1 p j l = bandTerm x ca R j l
  unfold blockTerm bandTerm
  by_cases h : l < 31 ∧ l ≤ j.val ∧ j.val - l < 1024
  · rw [dif_pos h, dif_pos h, h0, h1]
  · rw [dif_neg h, dif_neg h]

/-! ## From the blocks to the array -/

/-- What point t writes back is rows 16 t, …, 16 t + 15 of the measurement. -/
theorem flushed_eq (c : Dev nD) (t : Fin cfg0.N) :
    (dats m 0 c).flushed 2 t = ((cfg0.win 2).blk t).view.read (Elt Ideal) (rows (cube m c) (aperture m c)) := by
  show (cfg0.win 2).cut (grid0.coords t) ((dats m 0 c).after 2 t) = _
  rw [after0_2]
  have hN : cfg0.N = 64 := N_0
  have ht := t.isLt
  obtain ⟨-, -, -, -, -, -, e0, e1⟩ := idx_facts t
  funext y
  obtain ⟨p, j, rfl⟩ : ∃ (p : Fin 16) (j : Fin 1054), y = ix2 p j := ⟨y 0, y 1, eq_ix2 y⟩
  have hp := p.isLt
  rw [View.read_apply]
  show out0_2 (F := Ideal) (iblk m c 0 t) (iblk m c 1 t) (ix2 p j) = rows (cube m c) (aperture m c) (((cfg0.win 2).blk t).view.emb (ix2 p j))
  have hemb : ((cfg0.win 2).blk t).view.emb (ix2 p j) = ix2 (⟨16 * t.val + p.val, by omega⟩ : Fin 1024) j := by
    funext a
    apply Fin.ext
    match a with
    | ⟨0, _⟩ => show win0_2.index t (0 : Fin 2) * 16 + 1 * p.val = 16 * t.val + p.val; rw [e0]; omega
    | ⟨1, _⟩ => show win0_2.index t (1 : Fin 2) * 1054 + 1 * j.val = j.val; rw [e1]; omega
  rw [hemb]
  exact block_eq (cube m c) (aperture m c) (iblk m c 0 t) (iblk m c 1 t) p j _
    (fun l n => cube_block m c t p l n _ rfl) (fun n => aperture_block m c t p n _ rfl)

/-- An entry of the result is in point t's block iff each coordinate is in the block's range on its axis. -/
theorem mem_blk (t : Fin cfg0.N) (i : S1024x1054.Idx) :
    i ∈ ((cfg0.win 2).blk t).view.set ↔ ∀ a : Fin 2, win0_2.index t a * S16x1054.size a ≤ (i a).val ∧ (i a).val < win0_2.index t a * S16x1054.size a + S16x1054.size a := by
  show i ∈ ((View.whole main_v3).slice (win0_2.rect t)).set ↔ _
  rw [View.set_slice_whole, Rect.mem_set_unit]
  exact Iff.rfl

/-- Every entry of the result is in the block of the point that holds its row: row r belongs to point r / 16. -/
theorem cover (i : S1024x1054.Idx) :
    ∃ t : Fin cfg0.N, (cfg0.win 2).flush t = true ∧ i ∈ ((cfg0.win 2).blk t).view.set := by
  have hN : cfg0.N = 64 := N_0
  have hi0 : (i 0).val < 1024 := (i 0).isLt
  have hi1 : (i 1).val < 1054 := (i 1).isLt
  refine ⟨⟨(i 0).val / 16, by omega⟩, flush0_2 _, ?_⟩
  rw [mem_blk]
  obtain ⟨-, -, -, -, -, -, e0, e1⟩ := idx_facts ⟨(i 0).val / 16, by omega⟩
  intro a
  match a with
  | ⟨0, _⟩ =>
    show win0_2.index _ (0 : Fin 2) * 16 ≤ (i 0).val ∧ (i 0).val < win0_2.index _ (0 : Fin 2) * 16 + 16
    rw [e0]
    show (i 0).val / 16 * 16 ≤ (i 0).val ∧ (i 0).val < (i 0).val / 16 * 16 + 16
    omega
  | ⟨1, _⟩ =>
    show win0_2.index _ (1 : Fin 2) * 1054 ≤ (i 1).val ∧ (i 1).val < win0_2.index _ (1 : Fin 2) * 1054 + 1054
    rw [e1]
    omega

/-- The result array after the grid is the measurement, row by row. -/
theorem final (c : Dev nD) : (dats m 0 c).arrAt 2 cfg0.N = rows (cube m c) (aperture m c) :=
  (dats m 0 c).arrAt_eq_of_cover 2 (rows (cube m c) (aperture m c)) (fun t _ => flushed_eq m c t) cover

/-! ## The program's result -/

/-- The reshape after the grid only adds unit axes: the program's result is the sheared measurement. -/
theorem result_eq (c : Dev nD) :
    (Pipeline.afterTail₀ cfgs (dats m) 0 (V0 m) [hostOps1] c main_v4 : SOut.Idx → EReal)
      = sheared (cube m c) (aperture m c) := by
  have e : (Pipeline.afterTail₀ cfgs (dats m) 0 (V0 m) [hostOps1] c main_v4 : S1x1024x1054x1.Idx → EReal)
      = shapeCast S1x1024x1054x1 (rows (cube m c) (aperture m c)) shapeCasts_S1024x1054_S1x1024x1054x1 := by
    unfold Pipeline.afterTail₀
    show StableHlo.after hostOps1 _ (Proc.devRef .tc main_v4) = _
    after_results
    rw [Pipeline.withArrays_arr spec0 launch0.win.arr_inj c _ _ 2, final m c]
    rfl
  rw [e]
  funext i
  obtain ⟨b, r, j, z, rfl⟩ : ∃ (b : Fin 1) (r : Fin 1024) (j : Fin 1054) (z : Fin 1), i = ix4 b r j z :=
    ⟨i 0, i 1, i 2, i 3, eq_ix4 i⟩
  refine (shapeCast_apply _ _ (ix4 b r j z) (ix2 r j) ?_).trans rfl
  rw [Shape.rowMajor_val_four, Shape.rowMajor_val_two]
  show r.val * 1054 + j.val = ((b.val * 1024 + r.val) * 1054 + j.val) * 1 + z.val
  have := b.isLt
  have := z.isLt
  omega

/-- The run, read: every weakly fair execution ends with the result at the sheared measurement of the two
    arguments, the arguments unchanged. -/
theorem run : θ_run defs (onTc (τ := τ) (main (F := Ideal))) ⟨m, fun _ => 0, ρ⟩ fun r => ∀ c : Dev nD,
      r.2.mem ((c : Thread nD τ).loc main_v4) = sheared (cube m c) (aperture m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Sheared

end
-- ==== Proof.LibScatter3.lean ====
/-
  The accumulating scatter into a rank-3 operand along its last axis, read at one element.

  Operand [B × M × C], scatter indices [N × L × 1] (the index vector on the last axis, with one component,
  sent to operand axis 2, and that axis inserted), updates [B × M × N × L] whose axes 0 and 1 are window
  axes carried to operand axes 0 and 1.  Update (b', m', n, l) reads its one start-index component at
  (n, l, 0); the start of its window is that word, read as a signed integer and NOT clamped, on operand
  axis 2 and zero on axes 0 and 1; its window coordinate is b' on axis 0, m' on axis 1 and zero on axis 2.
  So the update lands on operand element (b, m, c) exactly when the word at (n, l, 0) reads c, b' = b and
  m' = m (an integer outside [0, C) lands nowhere and the update is dropped).  Summed over the updates, the
  accumulating scatter adds to operand element (b, m, c) every update (b, m, n, l) whose index word reads c:
  the fourfold sum over the updates' coordinates collapses on its first two coordinates to the double sum
  over (n, l).

  Each statement takes the dimension numbers' fields as hypotheses, so it applies to any record with
  those fields.
-/
import Idealize.ShloMosaic.PureOps.Ideal
import Idealize.ShloMosaic.Lib.ValueIdx

noncomputable section

open Idealize.ShloMosaic Idealize.ShloMosaic.ValueIdx

namespace Cert.Scatter3

/-! ## Axes and lists -/

/-- A position on an axis of three places is the first, the second or the third. -/
theorem fin3_cases (a : Fin 3) : a = 0 ∨ a = 1 ∨ a = 2 := by
  rcases a with ⟨v, hv⟩
  rcases (by omega : v = 0 ∨ v = 1 ∨ v = 2) with rfl | rfl | rfl
  · exact Or.inl rfl
  · exact Or.inr (Or.inl rfl)
  · exact Or.inr (Or.inr rfl)

/-- Reading a list at a position, when the list and the position are known: equal lists read at equal
    positions give equal entries. -/
theorem getElem_of_eq {α : Type} {l l' : List α} (hl : l = l') {k k' : ℕ} (hk : k = k')
    (h : k < l.length) (h' : k' < l'.length) : l[k]'h = l'[k']'h' := by
  subst hl hk; rfl

/-- With window axes 0 and 1 of four, the updates' scatter axes are 2 and 3, in that order. -/
theorem uScatter_eq {B M C N L : ℕ}
    (d : ScatterDims ⟨3, ![B, M, C]⟩ ⟨3, ![N, L, 1]⟩ ⟨4, ![B, M, N, L]⟩)
    (huw : d.updateWindowDims = [0, 1]) : d.uScatter = [2, 3] := by
  show Shape.kept _ d.updateWindowDims = _
  rw [huw]; rfl

/-- With the index vector on axis 2 of three, the scatter indices' other axes are 0 and 1, in that order. -/
theorem siKept_eq {B M C N L : ℕ}
    (d : ScatterDims ⟨3, ![B, M, C]⟩ ⟨3, ![N, L, 1]⟩ ⟨4, ![B, M, N, L]⟩)
    (hivd : d.indexVectorDim = 2) : d.siKept = [0, 1] := by
  show (List.finRange 3).filter (fun b => b.val ≠ d.indexVectorDim) = _
  rw [hivd]; rfl

/-- With operand axis 2 of three inserted, the operand's kept axes are 0 and 1, in that order. -/
theorem sKept_eq {B M C N L : ℕ}
    (d : ScatterDims ⟨3, ![B, M, C]⟩ ⟨3, ![N, L, 1]⟩ ⟨4, ![B, M, N, L]⟩)
    (hiw : d.insertedWindowDims = [2]) : d.sKept = [0, 1] := by
  show Shape.kept _ d.insertedWindowDims = _
  rw [hiw]; rfl

/-! ## Where an update lands -/

/-- Update j reads its one start-index component at (j 2, j 3, 0): scatter-indices axis 0 takes the
    coordinate of the first update scatter axis (axis 2), axis 1 that of the second (axis 3), and the index
    vector's axis has one place. -/
theorem scatter3_siIdx {B M C N L : ℕ}
    (d : ScatterDims ⟨3, ![B, M, C]⟩ ⟨3, ![N, L, 1]⟩ ⟨4, ![B, M, N, L]⟩)
    (huw : d.updateWindowDims = [0, 1]) (hivd : d.indexVectorDim = 2)
    (j : (⟨4, ![B, M, N, L]⟩ : Shape).Idx) (c : Fin d.scatterDimsToOperandDims.length) :
    d.siIdx j c = ix3 (n0 := N) (n1 := L) (n2 := 1) (j 2) (j 3) 0 := by
  have hus := uScatter_eq d huw
  have hsk := siKept_eq d hivd
  funext b
  match b with
  | ⟨0, _⟩ =>
    unfold ScatterDims.siIdx
    rw [dif_neg (by rw [hivd]; simp)]
    unfold ScatterDims.siCoord
    apply Fin.ext
    simp only [Fin.val_cast]
    exact congrArg (fun a => (j a).val)
      (getElem_of_eq hus (k' := 0) (by rw [hsk]; rfl) _ (by simp))
  | ⟨1, _⟩ =>
    unfold ScatterDims.siIdx
    rw [dif_neg (by rw [hivd]; simp)]
    unfold ScatterDims.siCoord
    apply Fin.ext
    simp only [Fin.val_cast]
    exact congrArg (fun a => (j a).val)
      (getElem_of_eq hus (k' := 1) (by rw [hsk]; rfl) _ (by simp))
  | ⟨2, h2⟩ =>
    apply Fin.ext
    have h2' := (d.siIdx j c ⟨2, h2⟩).isLt
    have h3 : (⟨3, ![N, L, 1]⟩ : Shape).size ⟨2, h2⟩ = 1 := rfl
    show (d.siIdx j c ⟨2, h2⟩).val = 0
    omega

/-- Update j lands on operand element i exactly when the index word at (j 2, j 3, 0), read signed, is i's
    coordinate on axis 2 and j agrees with i on axes 0 and 1.  The start is that integer on axis 2 and zero on
    axes 0 and 1; the window coordinate is j 0 on axis 0, j 1 on axis 1 and zero on axis 2; the sum of the two
    must be inside the operand on every axis, which on axes 0 and 1 always holds. -/
theorem scatter3_resultIdx_iff {B M C N L w : ℕ}
    (d : ScatterDims ⟨3, ![B, M, C]⟩ ⟨3, ![N, L, 1]⟩ ⟨4, ![B, M, N, L]⟩)
    (huw : d.updateWindowDims = [0, 1]) (hiw : d.insertedWindowDims = [2])
    (hsd : d.scatterDimsToOperandDims = [2]) (hivd : d.indexVectorDim = 2)
    (idx : IVec ⟨3, ![N, L, 1]⟩ w) (j : (⟨4, ![B, M, N, L]⟩ : Shape).Idx)
    (i : (⟨3, ![B, M, C]⟩ : Shape).Idx) :
    d.resultIdx? j idx = some i ↔
      (idx (ix3 (j 2) (j 3) (0 : Fin 1))).toInt = (((i 2).val : ℕ) : Int)
        ∧ (j 0).val = (i 0).val ∧ (j 1).val = (i 1).val := by
  have hm0 : (0 : Fin 3) ∉ d.scatterDimsToOperandDims := by rw [hsd]; simp
  have hm1 : (1 : Fin 3) ∉ d.scatterDimsToOperandDims := by rw [hsd]; simp
  have hm2 : (2 : Fin 3) ∈ d.scatterDimsToOperandDims := by rw [hsd]; exact List.mem_singleton.mpr rfl
  have hsK := sKept_eq d hiw
  have hk0 : (0 : Fin 3) ∈ d.sKept := by rw [hsK]; simp
  have hk1 : (1 : Fin 3) ∈ d.sKept := by rw [hsK]; simp
  have hk2 : (2 : Fin 3) ∉ d.sKept := by rw [hsK]; simp
  have hs0 : d.start j idx 0 = 0 := by
    unfold ScatterDims.start
    rw [dif_neg hm0]
  have hs1 : d.start j idx 1 = 0 := by
    unfold ScatterDims.start
    rw [dif_neg hm1]
  have hs2 : d.start j idx 2 = (idx (ix3 (j 2) (j 3) (0 : Fin 1))).toInt := by
    unfold ScatterDims.start
    rw [dif_pos hm2, scatter3_siIdx d huw hivd]
  have hw0 : d.window j 0 = (j 0).val := by
    unfold ScatterDims.window
    rw [dif_pos hk0]
    exact congrArg (fun a => (j a).val)
      (getElem_of_eq huw (k' := 0) (by rw [hsK]; rfl) _ (by simp))
  have hw1 : d.window j 1 = (j 1).val := by
    unfold ScatterDims.window
    rw [dif_pos hk1]
    exact congrArg (fun a => (j a).val)
      (getElem_of_eq huw (k' := 1) (by rw [hsK]; rfl) _ (by simp))
  have hw2 : d.window j 2 = 0 := by
    unfold ScatterDims.window
    rw [dif_neg hk2]
  have hlt0 : (i 0).val < B := (i 0).isLt
  have hlt1 : (i 1).val < M := (i 1).isLt
  have hlt2 : (i 2).val < C := (i 2).isLt
  have hj0 : (j 0).val < B := (j 0).isLt
  have hj1 : (j 1).val < M := (j 1).isLt
  unfold ScatterDims.resultIdx?
  split_ifs with h
  · rw [Option.some.injEq]
    have h2 := h 2
    rw [hs2, hw2] at h2
    constructor
    · intro hf
      have hv0 := congrArg Fin.val (congrFun hf 0)
      have hv1 := congrArg Fin.val (congrFun hf 1)
      have hv2 := congrArg Fin.val (congrFun hf 2)
      simp only [hs0, hw0] at hv0
      simp only [hs1, hw1] at hv1
      simp only [hs2, hw2] at hv2
      refine ⟨?_, ?_, ?_⟩ <;> omega
    · rintro ⟨he, hc0, hc1⟩
      funext a
      rcases fin3_cases a with rfl | rfl | rfl
      · apply Fin.ext
        simp only [hs0, hw0]
        omega
      · apply Fin.ext
        simp only [hs1, hw1]
        omega
      · apply Fin.ext
        simp only [hs2, hw2]
        omega
  · constructor
    · intro hh; cases hh
    · rintro ⟨he, hc0, hc1⟩
      exfalso
      apply h
      intro a
      rcases fin3_cases a with rfl | rfl | rfl
      · rw [hs0, hw0]
        show (0 : Int) ≤ 0 + (((j 0).val : ℕ) : Int) ∧ (0 : Int) + (((j 0).val : ℕ) : Int) < (B : ℕ)
        omega
      · rw [hs1, hw1]
        show (0 : Int) ≤ 0 + (((j 1).val : ℕ) : Int) ∧ (0 : Int) + (((j 1).val : ℕ) : Int) < (M : ℕ)
        omega
      · rw [hs2, hw2, he]
        show (0 : Int) ≤ ((i 2).val : ℕ) + ((0 : ℕ) : Int) ∧ (((i 2).val : ℕ) : Int) + ((0 : ℕ) : Int) < (C : ℕ)
        omega

/-- The same, by coordinates. -/
theorem scatter3_resultIdx_ix_iff {B M C N L w : ℕ}
    (d : ScatterDims ⟨3, ![B, M, C]⟩ ⟨3, ![N, L, 1]⟩ ⟨4, ![B, M, N, L]⟩)
    (huw : d.updateWindowDims = [0, 1]) (hiw : d.insertedWindowDims = [2])
    (hsd : d.scatterDimsToOperandDims = [2]) (hivd : d.indexVectorDim = 2)
    (idx : IVec ⟨3, ![N, L, 1]⟩ w) (b' : Fin B) (m' : Fin M) (n : Fin N) (l : Fin L)
    (b : Fin B) (r : Fin M) (c : Fin C) :
    d.resultIdx? (ix4 b' m' n l) idx = some (ix3 b r c) ↔
      (idx (ix3 n l (0 : Fin 1))).toInt = ((c.val : ℕ) : Int) ∧ b' = b ∧ m' = r := by
  rw [scatter3_resultIdx_iff d huw hiw hsd hivd idx (ix4 b' m' n l) (ix3 b r c)]
  exact and_congr Iff.rfl (and_congr Fin.val_inj Fin.val_inj)

/-! ## The sum over the updates -/

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {A : Type*} [AddCommMonoid A] {n0 n1 n2 n3 : Nat}
    (f : (⟨4, ![n0, n1, n2, n3]⟩ : Shape).Idx → A) :
    ∑ i, f i = ∑ a : Fin n0, ∑ b : Fin n1, ∑ c : Fin n2, ∑ e : Fin n3, f (ix4 a b c e) := by
  rw [← Equiv.sum_comp (idxEquiv4 (n0 := n0) (n1 := n1) (n2 := n2) (n3 := n3)).symm f,
    Fintype.sum_prod_type]
  refine Finset.sum_congr rfl (fun a _ => ?_)
  rw [Fintype.sum_prod_type]
  refine Finset.sum_congr rfl (fun b _ => ?_)
  rw [Fintype.sum_prod_type]
  rfl

/-- The accumulating scatter read at element (b, r, c): the operand's element plus every update (b, r, n, l)
    whose index word at (n, l, 0) reads c.  In the fourfold sum over the updates only the terms with first
    coordinate b and second coordinate r can land on (b, r, c), so the two outer sums collapse to one term each. -/
theorem hostScatterAdd3_apply {B M C N L w : ℕ}
    (d : ScatterDims ⟨3, ![B, M, C]⟩ ⟨3, ![N, L, 1]⟩ ⟨4, ![B, M, N, L]⟩)
    (huw : d.updateWindowDims = [0, 1]) (hiw : d.insertedWindowDims = [2])
    (hsd : d.scatterDimsToOperandDims = [2]) (hivd : d.indexVectorDim = 2)
    (x : (⟨3, ![B, M, C]⟩ : Shape).Idx → EReal) (idx : IVec ⟨3, ![N, L, 1]⟩ w)
    (upd : (⟨4, ![B, M, N, L]⟩ : Shape).Idx → EReal) (b : Fin B) (r : Fin M) (c : Fin C) :
    Ideal.hostScatterAdd d x idx upd (ix3 b r c)
      = x (ix3 b r c) + ∑ n : Fin N, ∑ l : Fin L,
          if (idx (ix3 n l (0 : Fin 1))).toInt = ((c.val : ℕ) : Int) then upd (ix4 b r n l) else 0 := by
  unfold Ideal.hostScatterAdd
  congr 1
  rw [Finset.sum_filter, sum_idx4]
  simp only [scatter3_resultIdx_ix_iff d huw hiw hsd hivd]
  rw [Finset.sum_eq_single b]
  · rw [Finset.sum_eq_single r]
    · simp only [and_self, and_true]
    · intro m' _ hm
      refine Finset.sum_eq_zero (fun n _ => Finset.sum_eq_zero (fun l _ => ?_))
      rw [if_neg]
      rintro ⟨_, _, h⟩
      exact hm h
    · intro h
      exact absurd (Finset.mem_univ _) h
  · intro b' _ hb
    refine Finset.sum_eq_zero (fun m' _ => Finset.sum_eq_zero (fun n _ => Finset.sum_eq_zero (fun l _ => ?_)))
    rw [if_neg]
    rintro ⟨_, h, _⟩
    exact hb h
  · intro h
    exact absurd (Finset.mem_univ _) h

end Cert.Scatter3
-- ==== Proof.LibWordArith.lean ====
/-
  Word arithmetic of the index computations, one 32-bit word at a time.

  The host computes flat positions, rows and columns of the adjacency's entries with signed 32-bit
  operations.  Every word that occurs is a natural number below 2³¹, where the signed and the unsigned
  reading agree; there the operations are the natural numbers' own:

  * floor division (truncating quotient, less one when the signs differ and the remainder is not zero) by
    a positive divisor is the quotient of the values, because both signs are equal or the dividend is zero
    (and then the remainder is zero too);
  * the sign-corrected remainder (truncating remainder, plus the divisor when its sign differs from the
    divisor's and it is not zero) is the remainder of the values, because the truncating remainder of a
    non-negative word by a positive one is non-negative;
  * the maximum with zero and the wrap-around of a negative index (add the extent when below zero) leave
    the word as it is;
  * signed comparisons are the comparisons of the values.
-/
import Idealize.ShloMosaic.PureOps.Ideal
import Idealize.ShloMosaic.Lib.StableHlo.Predicate

noncomputable section

namespace Cert.Gcn.WordArith

open Idealize.ShloMosaic

/-- The sign of a word as a two's-complement integer: 0, −1 or 1. -/
def signW (a : BitVec 32) : BitVec 32 := if a = 0 then 0 else if a.msb then -1 else 1

/-- Floor division, element by element: the truncating quotient, less one where the operands' signs differ
    and the truncating remainder is not zero. -/
def floorDivide (a d : BitVec 32) : BitVec 32 :=
  Scalar.select
    (IntOp.andi (IntOp.cmpi .ne (signW a) (signW d)) (IntOp.cmpi .ne (IntOp.remsi .host a d) 0#32))
    (IntOp.subi (IntOp.divsi .host a d) 1#32) (IntOp.divsi .host a d)

/-- The divisor the remainder really uses: 1 in place of 0. -/
def safeDivisor (d : BitVec 32) : BitVec 32 := Scalar.select (IntOp.cmpi .eq d 0#32) 1#32 d

/-- The remainder with the divisor's sign, element by element: the truncating remainder by the safe divisor,
    plus that divisor where the remainder is not zero and its sign differs from the divisor's. -/
def remainderW (a d : BitVec 32) : BitVec 32 :=
  Scalar.select
    (IntOp.andi
      (IntOp.cmpi .ne (IntOp.cmpi .slt (IntOp.remsi .host a (safeDivisor d)) 0#32) (IntOp.cmpi .slt (safeDivisor d) 0#32))
      (IntOp.cmpi .ne (IntOp.remsi .host a (safeDivisor d)) 0#32))
    (IntOp.addi (IntOp.remsi .host a (safeDivisor d)) (safeDivisor d)) (IntOp.remsi .host a (safeDivisor d))

/-- The wrap-around of a negative index: the word plus the extent where the word is below zero. -/
def normIdx (a n : BitVec 32) : BitVec 32 := Scalar.select (IntOp.cmpi .slt a 0#32) (IntOp.addi a n) a

/-- The clip from below at zero. -/
def clip0 (a : BitVec 32) : BitVec 32 := IntOp.maxsi 0#32 a

/-! ## Words of small naturals -/

theorem toNat_ofNat_small (k : ℕ) (hk : k < 2 ^ 31) : (BitVec.ofNat 32 k).toNat = k := by
  rw [BitVec.toNat_ofNat]
  exact Nat.mod_eq_of_lt (by omega)

theorem toInt_ofNat_small (k : ℕ) (hk : k < 2 ^ 31) : (BitVec.ofNat 32 k).toInt = (k : Int) :=
  StableHlo.Predicate.toInt_ofNat_small k hk

theorem toInt_of_small {a : BitVec 32} (ha : a.toNat < 2 ^ 31) : a.toInt = (a.toNat : Int) :=
  StableHlo.Predicate.toInt_eq_toNat_of_lt ha

/-- A one-bit word is 1 or 0 according to a proposition it is 1 exactly under. -/
theorem bit_eq_ite {b : BitVec 1} {p : Prop} [Decidable p] (h : b = 1#1 ↔ p) : b = if p then 1#1 else 0#1 := by
  by_cases hp : p
  · rw [if_pos hp]; exact h.mpr hp
  · rw [if_neg hp]
    rcases BitVec.eq_zero_or_eq_one b with h0 | h1
    · exact h0
    · exact absurd (h.mp h1) hp

/-! ## Signed comparisons of small words -/

theorem slt_small {a b : BitVec 32} (ha : a.toNat < 2 ^ 31) (hb : b.toNat < 2 ^ 31) :
    IntOp.cmpi .slt a b = if a.toNat < b.toNat then 1#1 else 0#1 :=
  bit_eq_ite (StableHlo.Predicate.slt_iff_toNat ha hb)

theorem sge_small {a b : BitVec 32} (ha : a.toNat < 2 ^ 31) (hb : b.toNat < 2 ^ 31) :
    IntOp.cmpi .sge a b = if b.toNat ≤ a.toNat then 1#1 else 0#1 :=
  bit_eq_ite (StableHlo.Predicate.sge_iff_toNat ha hb)

theorem sle_small {a b : BitVec 32} (ha : a.toNat < 2 ^ 31) (hb : b.toNat < 2 ^ 31) :
    IntOp.cmpi .sle a b = if a.toNat ≤ b.toNat then 1#1 else 0#1 :=
  bit_eq_ite (StableHlo.Predicate.sle_iff_toNat ha hb)

theorem sgt_small {a b : BitVec 32} (ha : a.toNat < 2 ^ 31) (hb : b.toNat < 2 ^ 31) :
    IntOp.cmpi .sgt a b = if b.toNat < a.toNat then 1#1 else 0#1 :=
  bit_eq_ite (StableHlo.Predicate.sgt_iff_toNat ha hb)

theorem slt_zero_small {a : BitVec 32} (ha : a.toNat < 2 ^ 31) : IntOp.cmpi .slt a 0#32 = 0#1 := by
  rw [slt_small ha (by decide)]
  exact if_neg (by simp)

/-! ## Clip and wrap-around -/

theorem clip0_small {a : BitVec 32} (ha : a.toNat < 2 ^ 31) : clip0 a = a := by
  have hti := toInt_of_small ha
  have h0 : (0#32 : BitVec 32).toInt = 0 := by decide
  have hs : a.slt 0#32 = false := by
    simp only [BitVec.slt, hti, h0, decide_eq_false_iff_not]; omega
  unfold clip0 IntOp.maxsi
  rw [hs]
  rfl

theorem maxsi_zero_small {a : BitVec 32} (ha : a.toNat < 2 ^ 31) : IntOp.maxsi 0#32 a = a := clip0_small ha

theorem normIdx_small {a : BitVec 32} (n : BitVec 32) (ha : a.toNat < 2 ^ 31) : normIdx a n = a := by
  unfold normIdx
  rw [slt_zero_small ha]
  exact if_neg (by decide)

theorem select_slt_zero_small {a : BitVec 32} (n : BitVec 32) (ha : a.toNat < 2 ^ 31) :
    Scalar.select (IntOp.cmpi .slt a 0#32) (IntOp.addi a n) a = a := normIdx_small n ha

/-! ## Division and remainder -/

/-- A small non-negative dividend and a small positive divisor are at neither corner of the signed division. -/
theorem not_corner {a d : BitVec 32} (hd0 : 0 < d.toNat) (hd : d.toNat < 2 ^ 31) : ¬ IntOp.SDivCorner a d := by
  intro hc
  rcases hc with hc | ⟨_, hc⟩
  · rw [hc] at hd0; exact absurd hd0 (by decide)
  · rw [hc] at hd; exact absurd hd (by decide)

theorem divsi_small (u : ArithUnit) {a d : BitVec 32} (ha : a.toNat < 2 ^ 31) (hd0 : 0 < d.toNat) (hd : d.toNat < 2 ^ 31) :
    (IntOp.divsi u a d).toNat = a.toNat / d.toNat := by
  have hm : a.msb = false := BitVec.msb_eq_false_iff_two_mul_lt.mpr (by omega)
  have hmd : d.msb = false := BitVec.msb_eq_false_iff_two_mul_lt.mpr (by omega)
  simp only [IntOp.divsi, if_neg (not_corner hd0 hd), BitVec.sdiv_eq, hm, hmd, BitVec.udiv_eq, BitVec.toNat_udiv]

theorem remsi_small (u : ArithUnit) {a d : BitVec 32} (ha : a.toNat < 2 ^ 31) (hd0 : 0 < d.toNat) (hd : d.toNat < 2 ^ 31) :
    (IntOp.remsi u a d).toNat = a.toNat % d.toNat := by
  have hm : a.msb = false := BitVec.msb_eq_false_iff_two_mul_lt.mpr (by omega)
  have hmd : d.msb = false := BitVec.msb_eq_false_iff_two_mul_lt.mpr (by omega)
  simp only [IntOp.remsi, if_neg (not_corner hd0 hd), BitVec.srem_eq, hm, hmd, BitVec.umod_eq, BitVec.toNat_umod]

/-- The sign of a small positive word is 1. -/
theorem signW_pos {a : BitVec 32} (ha0 : 0 < a.toNat) (ha : a.toNat < 2 ^ 31) : signW a = 1#32 := by
  have hne : a ≠ 0 := by intro h; rw [h] at ha0; exact absurd ha0 (by decide)
  have hm : a.msb = false := BitVec.msb_eq_false_iff_two_mul_lt.mpr (by omega)
  unfold signW
  rw [if_neg hne, hm]
  rfl

/-- Floor division of a small non-negative word by a small positive one is the truncating division: the
    correction never applies. -/
theorem floorDivide_eq_divsi {a d : BitVec 32} (ha : a.toNat < 2 ^ 31) (hd0 : 0 < d.toNat) (hd : d.toNat < 2 ^ 31) :
    floorDivide a d = IntOp.divsi .host a d := by
  have hcond : IntOp.andi (IntOp.cmpi .ne (signW a) (signW d)) (IntOp.cmpi .ne (IntOp.remsi .host a d) 0#32) = 0#1 := by
    by_cases h0 : a.toNat = 0
    · have hr : IntOp.remsi .host a d = 0#32 := by
        apply BitVec.eq_of_toNat_eq
        rw [remsi_small .host ha hd0 hd, h0]
        simp
      rw [hr]
      show (IntOp.cmpi .ne (signW a) (signW d)) &&& (IntOp.cmpi .ne (0#32 : BitVec 32) 0#32) = 0#1
      have : IntOp.cmpi .ne (0#32 : BitVec 32) 0#32 = 0#1 := by decide
      rw [this, BitVec.and_zero]
    · rw [signW_pos (by omega) ha, signW_pos hd0 hd]
      show (IntOp.cmpi .ne (1#32 : BitVec 32) 1#32) &&& _ = 0#1
      have : IntOp.cmpi .ne (1#32 : BitVec 32) 1#32 = 0#1 := by decide
      rw [this, BitVec.zero_and]
  unfold floorDivide
  rw [hcond]
  exact if_neg (by decide)

theorem floorDivide_toNat {a d : BitVec 32} (ha : a.toNat < 2 ^ 31) (hd0 : 0 < d.toNat) (hd : d.toNat < 2 ^ 31) :
    (floorDivide a d).toNat = a.toNat / d.toNat := by
  rw [floorDivide_eq_divsi ha hd0 hd, divsi_small .host ha hd0 hd]

theorem floorDivide_2048 {a : BitVec 32} (ha : a.toNat < 2 ^ 31) : (floorDivide a 2048#32).toNat = a.toNat / 2048 :=
  floorDivide_toNat ha (by decide) (by decide)

theorem floorDivide_one {a : BitVec 32} (ha : a.toNat < 2 ^ 31) : floorDivide a 1#32 = a := by
  apply BitVec.eq_of_toNat_eq
  rw [floorDivide_toNat ha (by decide) (by decide)]
  show a.toNat / 1 = a.toNat
  exact Nat.div_one _

theorem floorDivide_lt {a d : BitVec 32} (ha : a.toNat < 2 ^ 31) (hd0 : 0 < d.toNat) (hd : d.toNat < 2 ^ 31) :
    (floorDivide a d).toNat < 2 ^ 31 := by
  rw [floorDivide_toNat ha hd0 hd]
  exact lt_of_le_of_lt (Nat.div_le_self _ _) ha

/-- A word that is not zero is its own safe divisor. -/
theorem safeDivisor_pos {d : BitVec 32} (hd0 : 0 < d.toNat) : safeDivisor d = d := by
  have hne : ¬ d = 0#32 := by intro h; rw [h] at hd0; exact absurd hd0 (by decide)
  have hc : IntOp.cmpi .eq d 0#32 = 0#1 := by
    rcases BitVec.eq_zero_or_eq_one (IntOp.cmpi .eq d 0#32) with h | h
    · exact h
    · exact absurd (StableHlo.Predicate.cmpi_eq_iff.mp h) hne
  unfold safeDivisor
  rw [hc]
  exact if_neg (by decide)

/-- The sign-corrected remainder of a small non-negative word by a small positive one is the truncating
    remainder: the correction never applies. -/
theorem remainderW_eq_remsi {a d : BitVec 32} (ha : a.toNat < 2 ^ 31) (hd0 : 0 < d.toNat) (hd : d.toNat < 2 ^ 31) :
    remainderW a d = IntOp.remsi .host a d := by
  have hr : (IntOp.remsi .host a d).toNat < 2 ^ 31 := by
    rw [remsi_small .host ha hd0 hd]
    exact lt_trans (Nat.mod_lt _ hd0) hd
  unfold remainderW
  rw [safeDivisor_pos hd0, slt_zero_small hr, slt_zero_small hd]
  have : IntOp.cmpi .ne (0#1 : BitVec 1) 0#1 = 0#1 := by decide
  rw [this]
  show Scalar.select ((0#1 : BitVec 1) &&& _) _ _ = _
  rw [BitVec.zero_and]
  exact if_neg (by decide)

theorem remainderW_toNat {a d : BitVec 32} (ha : a.toNat < 2 ^ 31) (hd0 : 0 < d.toNat) (hd : d.toNat < 2 ^ 31) :
    (remainderW a d).toNat = a.toNat % d.toNat := by
  rw [remainderW_eq_remsi ha hd0 hd, remsi_small .host ha hd0 hd]

theorem remainderW_2048 {a : BitVec 32} (ha : a.toNat < 2 ^ 31) : (remainderW a 2048#32).toNat = a.toNat % 2048 :=
  remainderW_toNat ha (by decide) (by decide)

theorem remainderW_one {a : BitVec 32} (ha : a.toNat < 2 ^ 31) : remainderW a 1#32 = 0#32 := by
  apply BitVec.eq_of_toNat_eq
  rw [remainderW_toNat ha (by decide) (by decide)]
  show a.toNat % 1 = 0
  exact Nat.mod_one _

theorem remainderW_lt {a d : BitVec 32} (ha : a.toNat < 2 ^ 31) (hd0 : 0 < d.toNat) (hd : d.toNat < 2 ^ 31) :
    (remainderW a d).toNat < d.toNat := by
  rw [remainderW_toNat ha hd0 hd]
  exact Nat.mod_lt _ hd0

end Cert.Gcn.WordArith

end
-- ==== Proof.RefValue.lean ====
/-
  The reference's result, as the sheared measurement of its two arguments.

  The reference masks the whole cube, y[0, r, n, l] = x[0, r, n, l] · ca[0, r, n, 0], builds the table of target
  columns n + l (an integer iota over the columns plus one over the bands; the table's entries are below
  1024 + 31, so none is negative and the wrap-around of negative indices leaves it as it is), and scatter-adds
  y into a zero array along the last axis: entry (0, r, c) receives every y[0, r, n, l] with n + l = c.  For a
  fixed band l at most one column meets that diagonal, namely c - l, so the double sum over (n, l) is the sum
  over the bands of the masked entry of column c - l.  The final broadcast only adds a trailing unit axis.
-/
import proofs.«403431_j73246372266466_4_alg».proof.Proof.Gen.ReferenceIdeal.Read
import proofs.«403431_j73246372266466_4_alg».proof.Proof.LibScatter3
import proofs.«403431_j73246372266466_4_alg».proof.Proof.LibWordArith
import proofs.«403431_j73246372266466_4_alg».proof.Proof.Shear
import Idealize.ShloMosaic.PureOps.Ideal.Laws
import Idealize.ShloMosaic.Lib.ValueIdx

noncomputable section

open Idealize.ShloMosaic Idealize.ShloMosaic.ValueIdx

namespace Cert.ReferenceIdeal.Sheared

open Cert.ReferenceIdeal Cert.ReferenceIdeal.Gen Cert.ReferenceIdeal.Read Cert.Shear

/-- The table of target columns: the word at (n, l) is n + l. -/
theorem column_word (n : Fin 1024) (l : Fin 31) :
    val_main_v8 (F := Ideal) (ix2 n l) = BitVec.ofNat 32 (n.val + l.val) := by
  rw [val_main_v8_apply, val_main_v6_apply, val_main_v3_apply, val_main_v2_apply, val_main_v7_apply,
    val_main_v5_apply, val_main_v4_apply]
  show IntOp.addi (BitVec.ofNat 32 n.val) (BitVec.ofNat 32 l.val) = _
  unfold IntOp.addi
  rw [BitVec.ofNat_add]

/-- The scatter's index word at (n, l, 0), read as a signed integer, is n + l: the sum is far below 2³¹, so it is
    not negative and is left as it is. -/
theorem index_word (n : Fin 1024) (l : Fin 31) :
    (val_main_v15 (F := Ideal) (ix3 n l (0 : Fin 1))).toInt = ((n.val + l.val : ℕ) : Int) := by
  have hn := n.isLt
  have hl := l.isLt
  have hi : idx_main_v15 (ix3 n l (0 : Fin 1)) = ix2 n l :=
    funext fun a => match a with | ⟨0, _⟩ => rfl | ⟨1, _⟩ => rfl
  have hsmall : (BitVec.ofNat 32 (n.val + l.val)).toNat < 2 ^ 31 := by
    rw [Cert.Gcn.WordArith.toNat_ofNat_small _ (by omega)]; omega
  rw [val_main_v15_apply, hi, val_main_v14_apply, val_main_v11_apply, val_main_v13_apply, val_main_v10_apply,
    val_main_c_apply, column_word, Cert.Gcn.WordArith.select_slt_zero_small _ hsmall,
    Cert.Gcn.WordArith.toInt_ofNat_small _ (by omega)]

/-- The reference's result is the sheared measurement. -/
theorem result_eq (x : SX.Idx → EReal) (ca : SCa.Idx → EReal) :
    val_main_v17 (F := Ideal) x ca = sheared x ca := by
  funext i
  obtain ⟨b, r, j, z, rfl⟩ : ∃ (b : Fin 1) (r : Fin 1024) (j : Fin 1054) (z : Fin 1), i = ix4 b r j z :=
    ⟨i 0, i 1, i 2, i 3, eq_ix4 i⟩
  have hi : idx_main_v17 (ix4 b r j z) = ix3 (0 : Fin 1) r j :=
    funext fun a => match a with | ⟨0, _⟩ => rfl | ⟨1, _⟩ => rfl | ⟨2, _⟩ => rfl
  rw [val_main_v17_apply, hi]
  unfold val_main_v16
  show Ideal.hostScatterAdd scatter_S1x1024x1054_S1024x31x1_S1x1024x1024x31_01_2_2_2 (val_main_v9 (F := Ideal))
      (val_main_v15 (F := Ideal)) (val_main_v1 (F := Ideal) x ca) (ix3 (0 : Fin 1) r j) = _
  rw [Cert.Scatter3.hostScatterAdd3_apply _ rfl rfl rfl rfl, val_main_v9_apply, val_main_cst_apply]
  show Ideal.ofBits .f32 0x00000000#32 + _ = _
  rw [Ideal.ofBits_zero_f32, zero_add]
  simp only [index_word, Nat.cast_inj]
  rw [sum_diagonal j (fun n l => val_main_v1 (F := Ideal) x ca (ix4 (0 : Fin 1) r n l))]
  show _ = ∑ l ∈ Finset.range 31, bandTerm x ca r j l
  refine Finset.sum_congr rfl (fun l _ => ?_)
  unfold bandTerm
  by_cases h : l < 31 ∧ l ≤ j.val ∧ j.val - l < 1024
  · rw [dif_pos h, dif_pos h, val_main_v1_apply, val_main_v0_apply]
    have h0 : idx_main_v0 (ix4 (0 : Fin 1) r (⟨j.val - l, h.2.2⟩ : Fin 1024) (⟨l, h.1⟩ : Fin 31))
        = ix4 (0 : Fin 1) r (⟨j.val - l, h.2.2⟩ : Fin 1024) (0 : Fin 1) :=
      funext fun a => match a with | ⟨0, _⟩ => rfl | ⟨1, _⟩ => rfl | ⟨2, _⟩ => rfl | ⟨3, _⟩ => rfl
    rw [h0]
    rfl
  · rw [dif_neg h, dif_neg h]

end Cert.ReferenceIdeal.Sheared

end
-- ==== Proof.lean ====
/-
  The coded-aperture shear: the kernel and its reference compute the same measurement over the extended reals.

  Both programs mask the spectral cube by the aperture, x[0, r, n, l] · ca[0, r, n, 0], shift band l by l columns
  and add the 31 bands; entry (0, r, c, 0) of the result is

      ∑_{l < 31} (if l ≤ c ∧ c - l < 1024 then x[0, r, c-l, l] · ca[0, r, c-l, 0] else 0)       (Proof/Shear.lean).

  The kernel works on 16 rows at a time: for each band it pads the masked slab with 30 zeros and rotates it l
  places to the right, so that only zeros wrap round, and adds the rotated bands onto zero in the order
  l = 0, …, 30 (Proof/ShiftedBand.lean, Proof/BodyValue.lean); the 64 blocks it writes are the 64 row groups of the
  measurement and tile the result (Proof/KernelValue.lean).  The reference scatter-adds the masked cube along the
  diagonals n + l = c into a zero array (Proof/LibScatter3.lean reads that scatter at one element); on each
  diagonal a band has at most one entry, which turns the double sum over (n, l) into the sum over the bands
  (Proof/RefValue.lean).  The two sums have the same terms; only 0 + a = a and the commutativity and associativity
  of addition are used, which hold on all extended reals, so the precondition (finite inputs) is never opened.

  The three frames are the generated ones (the reference's is its generated run with the result dropped), and the
  idealization rewrote nothing, so the preservation claim is trivial.
-/
import proofs.«403431_j73246372266466_4_alg».proof.Defs
import proofs.«403431_j73246372266466_4_alg».proof.Proof.Gen.Kernel
import proofs.«403431_j73246372266466_4_alg».proof.Proof.Gen.Kernel.Skeleton
import proofs.«403431_j73246372266466_4_alg».proof.Proof.Gen.Kernel.Launch
import proofs.«403431_j73246372266466_4_alg».proof.Proof.Gen.Kernel.Points
import proofs.«403431_j73246372266466_4_alg».proof.Proof.Gen.Kernel.Frame
import proofs.«403431_j73246372266466_4_alg».proof.Proof.Gen.KernelIdeal
import proofs.«403431_j73246372266466_4_alg».proof.Proof.Gen.KernelIdeal.Skeleton
import proofs.«403431_j73246372266466_4_alg».proof.Proof.Gen.KernelIdeal.Launch
import proofs.«403431_j73246372266466_4_alg».proof.Proof.Gen.KernelIdeal.Points
import proofs.«403431_j73246372266466_4_alg».proof.Proof.Gen.KernelIdeal.Frame
import proofs.«403431_j73246372266466_4_alg».proof.Proof.Gen.ReferenceIdeal
import proofs.«403431_j73246372266466_4_alg».proof.Proof.Gen.Pre_finite_inputs
import proofs.«403431_j73246372266466_4_alg».proof.Proof.Gen.ReferenceIdeal.Run
import proofs.«403431_j73246372266466_4_alg».proof.Proof.Gen.ReferenceIdeal.Read
import proofs.«403431_j73246372266466_4_alg».proof.Proof.KernelValue
import proofs.«403431_j73246372266466_4_alg».proof.Proof.RefValue
import Idealize.ShloMosaic.Adequacy
import Idealize.ShloMosaic.Init

noncomputable section

namespace Cert.Proof

open Idealize.ShloMosaic Idealize.SL.Sem

/-- The kernel's frame, as printed and as idealized: the generated frame certificates. -/
theorem frame_kernel : Cert.frame_Kernel := fun m ρ _ => Cert.Kernel.Gen.frame m ρ
theorem frame_kernelIdeal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the sheared measurement of their arguments, and the arguments agree. -/
theorem algebraic : Cert.algebraic_KernelIdeal_ReferenceIdeal := by
  intro m ρ m' ρ' _ hagree
  refine ⟨fun c => Cert.Shear.sheared (Cert.KernelIdeal.Sheared.cube m c) (Cert.KernelIdeal.Sheared.aperture m c),
    Cert.KernelIdeal.Sheared.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Sheared.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
